-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024 : Shape := ⟨1, ![1024]⟩
abbrev S64x1024 : Shape := ⟨2, ![64, 1024]⟩
abbrev S64 : Shape := ⟨1, ![64]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x256 .f32) (main_arg1 : FVec F S1024x256 .f32) (main_arg2 : FVec F S1024 .f32) (main_arg3 : FVec F S64x1024 .f32) (main_arg4 : FVec F S64 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_v13 main_v16
-- ==== Kernel.lean ====
abbrev S65536x256 : Shape := ⟨2, ![65536, 256]⟩
abbrev S1024x256 : Shape := ⟨2, ![1024, 256]⟩
abbrev S1024 : Shape := ⟨1, ![1024]⟩
abbrev S64x1024 : Shape := ⟨2, ![64, 1024]⟩
abbrev S64 : Shape := ⟨1, ![64]⟩
abbrev S256x1024 : Shape := ⟨2, ![256, 1024]⟩
abbrev S_ : Shape := ⟨0, ![]⟩
abbrev S1x1024 : Shape := ⟨2, ![1, 1024]⟩
abbrev S1024x64 : Shape := ⟨2, ![1024, 64]⟩
abbrev S1x64 : Shape := ⟨2, ![1, 64]⟩
abbrev S65536x64 : Shape := ⟨2, ![65536, 64]⟩
abbrev S1024x1 : Shape := ⟨2, ![1024, 1]⟩
abbrev S1024x1024 : Shape := ⟨2, ![1024, 1024]⟩

abbrev nBuf : Space → Nat
  | .hbm => 23
  | .vmem => 9
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S256x1024, .f32⟩
  | .hbm, ⟨6, _⟩ => ⟨S256x1024, .bf16⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1024x64, .f32⟩
  | .hbm, ⟨20, _⟩ => ⟨S1024x64, .bf16⟩
  | .hbm, ⟨21, _⟩ => ⟨S1x64, .f32⟩
  | .hbm, ⟨22, _⟩ => ⟨S65536x64, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1x1024, .f32⟩
  | .local _ .vmem, ⟨4, _⟩ => ⟨S1x1024, .f32⟩
  | .local _ .vmem, ⟨5, _⟩ => ⟨S1024x64, .bf16⟩
  | .local _ .vmem, ⟨6, _⟩ => ⟨S1x64, .f32⟩
  | .local _ .vmem, ⟨7, _⟩ => ⟨S1024x64, .f32⟩
  | .local _ .vmem, ⟨8, _⟩ => ⟨S1024x64, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x256_S256x1024_1_0 : S1024x256.Transposes [1, 0] S256x1024
  bitsLt_bf16_f32 : FTy.bits .bf16 < FTy.bits .f32
  reducesTo_S1024x256_S1024_d1 : S1024x256.ReducesTo [1] S1024
  h_S_ : 0 < S_.numel
  shapeCasts_S1024_S1x1024 : S1024.ShapeCasts S1x1024
  bcast_S_S1024 : S_.BroadcastsInDim S1024 (![] : Fin 0 → Fin S1024.rank)
  transposes_S64x1024_S1024x64_1_0 : S64x1024.Transposes [1, 0] S1024x64
  shapeCasts_S64_S1x64 : S64.ShapeCasts S1x64
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S1024x256_S256x1024_S1024x1024_1_0_0_1_n_n_wf : DotDims.WF S1024x256 S256x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S65536x64.size a
  hwx0_6 : ∀ i : grid0.Coords, EltTy.bits .f32 = 32 ∨ (Rect.block (s := S65536x64) S1024x64.size (cc0_transform_6 i) (hinb0_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024 : Shape := ⟨1, ![1024]⟩
abbrev S64x1024 : Shape := ⟨2, ![64, 1024]⟩
abbrev S64 : Shape := ⟨1, ![64]⟩
abbrev S_ : Shape := ⟨0, ![]⟩
abbrev S65536 : Shape := ⟨1, ![65536]⟩
abbrev S65536x1 : Shape := ⟨2, ![65536, 1]⟩
abbrev S65536x1024 : Shape := ⟨2, ![65536, 1024]⟩
abbrev S1x1024 : Shape := ⟨2, ![1, 1024]⟩
abbrev S65536x64 : Shape := ⟨2, ![65536, 64]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S65536x256, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S1024x256, .f32⟩
  | .hbm, ⟨10, _⟩ => ⟨S_, .f32⟩
  | .hbm, ⟨11, _⟩ => ⟨S1024, .f32⟩
  | .hbm, ⟨12, _⟩ => ⟨S65536x1024, .f32⟩
  | .hbm, ⟨13, _⟩ => ⟨S_, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x64, .f32⟩
  | .hbm, ⟨34, _⟩ => ⟨S1x64, .f32⟩
  | .hbm, ⟨35, _⟩ => ⟨S65536x64, .f32⟩
  | .hbm, ⟨36, _⟩ => ⟨S65536x64, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S1024 : S_.BroadcastsInDim S1024 (![] : Fin 0 → Fin S1024.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  dot_S65536x256_S1024x256_S65536x1024_1_1_0_0_n_n_wf : DotDims.WF S65536x256 S1024x256 S65536x1024 [1] [1] [0] [0] [] []
  dot_S65536x1024_S64x1024_S65536x64_1_1_0_0_n_n_wf : DotDims.WF S65536x1024 S64x1024 S65536x64 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf
def dot_S65536x1024_S64x1024_S65536x64_1_1_0_0_n_n : DotDims S65536x1024 S64x1024 S65536x64 where
  lhsContracting := [1]
  rhsContracting := [1]
  lhsNonContracting := [0]
  rhsNonContracting := [0]
  lhsBatch := []
  rhsBatch := []
  wf := dot_S65536x1024_S64x1024_S65536x64_1_1_0_0_n_n_wf

class Facts : Prop extends Facts₀ where

variable [Facts]
-- ==== Proof.Spec.lean ====
/-
  The radial-basis network as ONE function of its five argument arrays, entry by entry, on the extended reals.
  For sample `n` and output unit `o`:

      net[n, o] = Σ_c  exp( −gap(n, c) / width(c) ) · W[o, c]  +  b[o]

  where `gap(n, c) = ‖x_n‖² − 2·⟨x_n, ctr_c⟩ + ‖ctr_c‖²` is the squared distance from sample `n` to centre `c`, spelt through
  the expansion of the square (`‖x_n‖² = Σ_d x[n,d]²`, `⟨x_n, ctr_c⟩ = Σ_d x[n,d]·ctr[c,d]`, `‖ctr_c‖² = Σ_d ctr[c,d]²`), and
  `width(c) = 2·σ_c² + ε`. The literals `2` and `ε` are the exact binary values of their single-precision words; both
  programs carry the same two words, so neither is ever evaluated.
-/
import Idealize.ShloMosaic.PureOps.Ideal
import Idealize.ShloMosaic.Lib.ValueIdx

noncomputable section

namespace Cert.Rbf

open Idealize.ShloMosaic Idealize.ShloMosaic.ValueIdx

/-- The factor `2` of the cross term and of the width. -/
abbrev two : EReal := Ideal.ofBits .f32 0x40000000#32

/-- The width's guard `ε` (the single-precision word nearest `1e-8`). -/
abbrev eps : EReal := Ideal.ofBits .f32 0x322BCC77#32

/-- Squared distance from sample `n` to centre `c`, as the expanded square. -/
def gap (x : (⟨2, ![65536, 256]⟩ : Shape).Idx → EReal) (ctr : (⟨2, ![1024, 256]⟩ : Shape).Idx → EReal)
    (n : Fin 65536) (c : Fin 1024) : EReal :=
  (∑ d : Fin 256, x (ix2 n d) * x (ix2 n d)) - two * (∑ d : Fin 256, x (ix2 n d) * ctr (ix2 c d))
    + ∑ d : Fin 256, ctr (ix2 c d) * ctr (ix2 c d)

/-- The width of centre `c`'s bump: `2·σ_c² + ε`. -/
def width (σ : (⟨1, ![1024]⟩ : Shape).Idx → EReal) (c : Fin 1024) : EReal :=
  two * (σ (ix1 c) * σ (ix1 c)) + eps

/-- Centre `c`'s activation on sample `n`: `exp(−gap / width)`. -/
def act (x : (⟨2, ![65536, 256]⟩ : Shape).Idx → EReal) (ctr : (⟨2, ![1024, 256]⟩ : Shape).Idx → EReal)
    (σ : (⟨1, ![1024]⟩ : Shape).Idx → EReal) (n : Fin 65536) (c : Fin 1024) : EReal :=
  Ideal.exp (Ideal.div (-(gap x ctr n c)) (width σ c))

/-- The network's output for sample `n` at unit `o`: the activations weighted by row `o` of `W`, plus the bias. -/
def netAt (x : (⟨2, ![65536, 256]⟩ : Shape).Idx → EReal) (ctr : (⟨2, ![1024, 256]⟩ : Shape).Idx → EReal)
    (σ : (⟨1, ![1024]⟩ : Shape).Idx → EReal) (W : (⟨2, ![64, 1024]⟩ : Shape).Idx → EReal)
    (b : (⟨1, ![64]⟩ : Shape).Idx → EReal) (n : Fin 65536) (o : Fin 64) : EReal :=
  (∑ c : Fin 1024, act x ctr σ n c * W (ix2 o c)) + b (ix1 o)

/-- The whole [65536, 64] result. -/
def net (x : (⟨2, ![65536, 256]⟩ : Shape).Idx → EReal) (ctr : (⟨2, ![1024, 256]⟩ : Shape).Idx → EReal)
    (σ : (⟨1, ![1024]⟩ : Shape).Idx → EReal) (W : (⟨2, ![64, 1024]⟩ : Shape).Idx → EReal)
    (b : (⟨1, ![64]⟩ : Shape).Idx → EReal) : (⟨2, ![65536, 64]⟩ : Shape).Idx → EReal :=
  fun i => netAt x ctr σ W b (i 0) (i 1)

theorem net_ix2 (x : (⟨2, ![65536, 256]⟩ : Shape).Idx → EReal) (ctr : (⟨2, ![1024, 256]⟩ : Shape).Idx → EReal)
    (σ : (⟨1, ![1024]⟩ : Shape).Idx → EReal) (W : (⟨2, ![64, 1024]⟩ : Shape).Idx → EReal)
    (b : (⟨1, ![64]⟩ : Shape).Idx → EReal) (n : Fin 65536) (o : Fin 64) :
    net x ctr σ W b (ix2 n o) = netAt x ctr σ W b n o := rfl

end Cert.Rbf

end
-- ==== Proof.KernelBlock.lean ====
/-
  One grid point of the kernel, read entry by entry on the extended reals.

  The body receives a block of 1024 samples `xb` [1024, 256], the transposed centres `ct` [256, 1024], the centres' squared
  norms `cs` [1, 1024], the widths `dn` [1, 1024], the transposed weights `wt` [1024, 64] and the bias row `bb` [1, 64], and
  stores, at row `p` and unit `q`,

      Σ_c exp( (0 − ((Σ_d xb[p,d]² − 2·Σ_d xb[p,d]·ct[d,c]) + cs[0,c])) / dn[0,c] ) · wt[c,q]  +  bb[0,q].

  The two matrix products accumulate into zero, so each is a plain sum over its contracted axis; the changes of float
  format before them are the identity on the extended reals; the row sum of squares is a lane sum, kept as a column and
  broadcast across the centres; `cs`, `dn` and `bb` are single rows broadcast down the samples.
-/
import proofs.«176060_j19327352832510_1_alg».proof.Proof.Gen.KernelIdeal.Skeleton
import proofs.«176060_j19327352832510_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx

/-! ## Two layout steps of a row-wise reduction kept as a column -/

section Layout
variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum of a block's rows -/

/-- Summing a [1024, 256] block along its second axis: row `p`'s 256 entries added up. -/
theorem rowSum_apply (v : FVec Ideal S1024x256 .f32) (h : S1024x256.Reduces [1] S1024) (hφ : FKind.Formats .f32)
    (hacc : (0x00000000#32 : BitVec FTy.f32.bits) = FKind.add.neutral .f32 hφ) (p : Fin 1024) :
    multiReduction .add [1] S1024 v 0x00000000#32 h hφ hacc (ix1 p) = ∑ d : Fin 256, v (ix2 p d) :=
  (Ideal.multiReduction_add_single v 0x00000000#32 h hφ hacc (ix1 p)).trans
    (Finset.sum_congr rfl fun d _ => congrArg v (funext fun a => Fin.ext (by
      match a with
      | ⟨0, _⟩ => rfl
      | ⟨1, _⟩ => rfl)))

/-! ## The samples-by-centres product: [1024, 256] · [256, 1024], contracted over the 256 features -/

theorem lhs_cross_0 (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_cross_1 (j : S1024x1024.Idx) (q : dot_S1024x256_S256x1024_S1024x1024_1_0_0_1_n_n.contr.Idx) :
    (dot_S1024x256_S256x1024_S1024x1024_1_0_0_1_n_n.lhsIdx j q 1).val = (q ⟨0, by decide⟩).val :=
  dot_S1024x256_S256x1024_S1024x1024_1_0_0_1_n_n.lhsIdx_val_of_single rfl j q
theorem rhs_cross_0 (j : S1024x1024.Idx) (q : dot_S1024x256_S256x1024_S1024x1024_1_0_0_1_n_n.contr.Idx) :
    (dot_S1024x256_S256x1024_S1024x1024_1_0_0_1_n_n.rhsIdx j q 0).val = (q ⟨0, by decide⟩).val :=
  dot_S1024x256_S256x1024_S1024x1024_1_0_0_1_n_n.rhsIdx_val_of_single rfl j q
theorem rhs_cross_1 (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Entry `(p, c)` of the product accumulated into zero: `Σ_d l[p,d] · r[d,c]`. -/
theorem cross_apply (l : FVec Ideal S1024x256 .bf16) (r : FVec Ideal S256x1024 .bf16) (p c : Fin 1024) :
    matmul dot_S1024x256_S256x1024_S1024x1024_1_0_0_1_n_n none l r (constant (F := Ideal) S1024x1024 .f32 0x00000000#32) (ix2 p c)
      = ∑ d : Fin 256, l (ix2 p d) * r (ix2 d c) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p c) ((ValueIdx.contrEquiv1 dot_S1024x256_S256x1024_S1024x1024_1_0_0_1_n_n 256 rfl rfl).symm k) = ix2 p k := funext fun a => Fin.ext (by
    match a with
    | ⟨0, _⟩ => exact lhs_cross_0 _ _
    | ⟨1, _⟩ => exact (lhs_cross_1 _ _).trans hk)
  have er : dot_S1024x256_S256x1024_S1024x1024_1_0_0_1_n_n.rhsIdx (ix2 p c) ((ValueIdx.contrEquiv1 dot_S1024x256_S256x1024_S1024x1024_1_0_0_1_n_n 256 rfl rfl).symm k) = ix2 k c := funext fun a => Fin.ext (by
    match a with
    | ⟨0, _⟩ => exact (rhs_cross_0 _ _).trans hk
    | ⟨1, _⟩ => exact rhs_cross_1 _ _)
  rw [el, er]

/-! ## The activations-by-weights product: [1024, 1024] · [1024, 64], contracted over the 1024 centres -/

theorem lhs_mix_0 (j : S1024x64.Idx) (q : dot_S1024x1024_S1024x64_S1024x64_1_0_0_1_n_n.contr.Idx) :
    (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_mix_1 (j : S1024x64.Idx) (q : dot_S1024x1024_S1024x64_S1024x64_1_0_0_1_n_n.contr.Idx) :
    (dot_S1024x1024_S1024x64_S1024x64_1_0_0_1_n_n.lhsIdx j q 1).val = (q ⟨0, by decide⟩).val :=
  dot_S1024x1024_S1024x64_S1024x64_1_0_0_1_n_n.lhsIdx_val_of_single rfl j q
theorem rhs_mix_0 (j : S1024x64.Idx) (q : dot_S1024x1024_S1024x64_S1024x64_1_0_0_1_n_n.contr.Idx) :
    (dot_S1024x1024_S1024x64_S1024x64_1_0_0_1_n_n.rhsIdx j q 0).val = (q ⟨0, by decide⟩).val :=
  dot_S1024x1024_S1024x64_S1024x64_1_0_0_1_n_n.rhsIdx_val_of_single rfl j q
theorem rhs_mix_1 (j : S1024x64.Idx) (q : dot_S1024x1024_S1024x64_S1024x64_1_0_0_1_n_n.contr.Idx) :
    (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Entry `(p, q)` of the product accumulated into zero: `Σ_c l[p,c] · r[c,q]`. -/
theorem mix_apply (l : FVec Ideal S1024x1024 .bf16) (r : FVec Ideal S1024x64 .bf16) (p : Fin 1024) (q : Fin 64) :
    matmul dot_S1024x1024_S1024x64_S1024x64_1_0_0_1_n_n none l r (constant (F := Ideal) S1024x64 .f32 0x00000000#32) (ix2 p q)
      = ∑ c : Fin 1024, l (ix2 p c) * r (ix2 c q) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p q) ((ValueIdx.contrEquiv1 dot_S1024x1024_S1024x64_S1024x64_1_0_0_1_n_n 1024 rfl rfl).symm k) = ix2 p k := funext fun a => Fin.ext (by
    match a with
    | ⟨0, _⟩ => exact lhs_mix_0 _ _
    | ⟨1, _⟩ => exact (lhs_mix_1 _ _).trans hk)
  have er : dot_S1024x1024_S1024x64_S1024x64_1_0_0_1_n_n.rhsIdx (ix2 p q) ((ValueIdx.contrEquiv1 dot_S1024x1024_S1024x64_S1024x64_1_0_0_1_n_n 1024 rfl rfl).symm k) = ix2 k q := funext fun a => Fin.ext (by
    match a with
    | ⟨0, _⟩ => exact (rhs_mix_0 _ _).trans hk
    | ⟨1, _⟩ => exact rhs_mix_1 _ _)
  rw [el, er]

/-! ## The body's stored value, entry by entry -/

/-- The exponential of a vector reads entrywise. -/
theorem exp_apply {s : Shape} {φ : FTy} (v : FVec Ideal s φ) (i : s.Idx) : exp v i = Ideal.exp (v i) := rfl

/-- What one grid point stores at row `p`, unit `q`, from the six blocks it is handed (the header's formula). -/
def blockAt (xb : Vec Ideal S1024x256 .f32) (ct : Vec Ideal S256x1024 .bf16) (cs dn : Vec Ideal S1x1024 .f32)
    (wt : Vec Ideal S1024x64 .bf16) (bb : Vec Ideal S1x64 .f32) (p : Fin 1024) (q : Fin 64) : EReal :=
  (∑ c : Fin 1024,
      Ideal.exp (Ideal.div
        (0 - (((∑ d : Fin 256, xb (ix2 p d) * xb (ix2 p d)) - Cert.Rbf.two * (∑ d : Fin 256, xb (ix2 p d) * ct (ix2 d c)))
          + cs (ix2 (0 : Fin 1) c)))
        (dn (ix2 (0 : Fin 1) c))) * wt (ix2 c q))
    + bb (ix2 (0 : Fin 1) q)

/-- The body's one payload, read at `(p, q)`, is `blockAt`: the pointwise operations read entrywise, the two products and the
    lane sum by the lemmas above, the column and row broadcasts by their layout lemmas, the format changes dropped. -/
theorem pay_apply (xb : Vec Ideal S1024x256 .f32) (ct : Vec Ideal S256x1024 .bf16) (cs dn : Vec Ideal S1x1024 .f32)
    (wt : Vec Ideal S1024x64 .bf16) (bb : Vec Ideal S1x64 .f32) (p : Fin 1024) (q : Fin 64) :
    k0_pay1 (F := Ideal) xb ct cs dn wt bb (ix2 p q) = blockAt xb ct cs dn wt bb p q := by
  unfold k0_pay1 blockAt
  simp only [addf_apply, subf_apply, mulf_apply, divf_apply, truncf_apply, exp_apply, broadcast_apply, shapeCast_self,
    mix_apply, cross_apply, rowSum_apply, shapeCast_a_a1_apply, broadcastTo_a1_ab_apply, broadcastTo_1b_ab_apply,
    Ideal.ofBits_def, Ideal.ofBits_zero_f32]
  -- what is left differs only in the row's sum of squares, still spelt as the lane sum
  refine congrArg (· + bb (ix2 (0 : Fin 1) q)) (Finset.sum_congr rfl fun c _ => ?_)
  refine congrArg (fun s => Ideal.exp (Ideal.div
      (0 - ((s - Cert.Rbf.two * (∑ d : Fin 256, xb (ix2 p d) * ct (ix2 d c))) + cs (ix2 (0 : Fin 1) c)))
      (dn (ix2 (0 : Fin 1) c))) * wt (ix2 c q)) ?_
  exact (rowSum_apply (mulf xb xb) _ _ _ p).trans rfl

end Cert.KernelIdeal.Block

end
-- ==== Proof.KernelWindows.lean ====
/-
  What the six input blocks of a grid point hold, entry by entry, in terms of the five argument arrays.

  Before the grid runs, the host prepares: the centres transposed (`ctrᵀ[d, k] = ctr[k, d]`), each centre's squared norm
  as a row (`Σ_d ctr[k, d]²`, an initial zero plus the sum), each centre's width as a row (`2·σ_k² + ε`), the weights
  transposed (`Wᵀ[k, o] = W[o, k]`) and the bias as a row; the changes of float format are the identity on the extended
  reals. Grid point `t` is handed rows `1024·t … 1024·t + 1023` of `x` and, at every point, the whole of the five prepared
  arrays (their block index is always zero).
-/
import proofs.«176060_j19327352832510_1_alg».proof.Proof.Gen.KernelIdeal.Frame
import proofs.«176060_j19327352832510_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Windows

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The centres as launched, at their literal type: a [1024, 256] array of extended reals. -/
abbrev ctrArr (c : Dev nD) : S1024x256.Idx → EReal := m ((c : Thread nD τ).loc main_arg1)

/-! ## The five prepared arrays as the grid finds them -/

/-- A scalar constant spread over the 1024 centres reads that constant everywhere. -/
theorem splat_apply (w : BitVec FTy.f32.bits) (k : Fin 1024) :
    broadcastInDim S1024 ![] bcast_S_S1024 (constant (F := Ideal) S_ .f32 w) (ix1 k) = Ideal.ofBits .f32 w :=
  (broadcastInDim_apply _ bcast_S_S1024 _ (ix1 k) ix0 (fun a => a.elim0)).trans rfl

/-- The host's sum of a [1024, 256] array along its second axis from an initial zero: row `k`'s entries added up. -/
theorem hostRowSum_apply (v : FVec Ideal S1024x256 .f32) (k : Fin 1024) :
    Host.reduceAdd (F := Ideal) v (constant (F := Ideal) S_ .f32 0x00000000#32) reducesTo_S1024x256_S1024_d1 h_S_ (ix1 k)
      = ∑ d : Fin 256, v (ix2 k d) := by
  simp only [Host.reduceAdd, Ideal.hostReduceAdd_def]
  rw [Ideal.hostReduceAdd_single reducesTo_S1024x256_S1024_d1 reduces_S1024x256_S1024]
  show Ideal.ofBits .f32 0x00000000#32 + _ = _
  rw [Ideal.ofBits_zero_f32, zero_add]
  refine Finset.sum_congr rfl fun d _ => congrArg v (funext fun a => Fin.ext ?_)
  match a with
  | ⟨0, _⟩ => rfl
  | ⟨1, _⟩ => rfl

/-- The centres, transposed. -/
theorem ctrT_apply (c : Dev nD) (d : Fin 256) (k : Fin 1024) :
    (V m c main_v1 : S256x1024.Idx → EReal) (ix2 d k) = (m ((c : Thread nD τ).loc main_arg1) : S1024x256.Idx → EReal) (ix2 k d) := by
  have e : (V m c main_v1 : S256x1024.Idx → EReal)
      = truncf (F := Ideal) .bf16 (transpose S256x1024 [1, 0] (m ((c : Thread nD τ).loc main_arg1)) transposes_S1024x256_S256x1024_1_0) bitsLt_bf16_f32 := by
    unfold V; after_results
  rw [e, truncf_apply, transpose_ix2_apply]

/-- The centres' squared norms, as a row. -/
theorem ctrSq_apply (c : Dev nD) (u : Fin 1) (k : Fin 1024) :
    (V m c main_v4 : S1x1024.Idx → EReal) (ix2 u k)
      = (∑ d : Fin 256, ctrArr m c (ix2 k d) * ctrArr m c (ix2 k d) : EReal) := by
  have e : (V m c main_v4 : S1x1024.Idx → EReal)
      = shapeCast S1x1024 (Host.reduceAdd (F := Ideal) (mulf (m ((c : Thread nD τ).loc main_arg1)) (m ((c : Thread nD τ).loc main_arg1)))
          (constant (F := Ideal) S_ .f32 0x00000000#32) reducesTo_S1024x256_S1024_d1 h_S_) shapeCasts_S1024_S1x1024 := by
    unfold V; after_results; rfl
  rw [e, shapeCast_a_1a_apply, hostRowSum_apply]
  rfl

/-- The centres' widths, as a row. -/
theorem width_apply (c : Dev nD) (u : Fin 1) (k : Fin 1024) :
    (V m c main_v10 : S1x1024.Idx → EReal) (ix2 u k) = Cert.Rbf.width (m ((c : Thread nD τ).loc main_arg2)) k := by
  have e : (V m c main_v10 : S1x1024.Idx → EReal)
      = shapeCast S1x1024 (addf (mulf (broadcastInDim S1024 ![] bcast_S_S1024 (constant (F := Ideal) S_ .f32 0x40000000#32))
            (mulf (m ((c : Thread nD τ).loc main_arg2)) (m ((c : Thread nD τ).loc main_arg2))))
          (broadcastInDim S1024 ![] bcast_S_S1024 (constant (F := Ideal) S_ .f32 0x322BCC77#32))) shapeCasts_S1024_S1x1024 := by
    unfold V; after_results; rfl
  rw [e, shapeCast_a_1a_apply, addf_apply, mulf_apply, mulf_apply, splat_apply, splat_apply]
  rfl

/-- The weights, transposed. -/
theorem wT_apply (c : Dev nD) (k : Fin 1024) (o : Fin 64) :
    (V m c main_v12 : S1024x64.Idx → EReal) (ix2 k o) = (m ((c : Thread nD τ).loc main_arg3) : S64x1024.Idx → EReal) (ix2 o k) := by
  have e : (V m c main_v12 : S1024x64.Idx → EReal)
      = truncf (F := Ideal) .bf16 (transpose S1024x64 [1, 0] (m ((c : Thread nD τ).loc main_arg3)) transposes_S64x1024_S1024x64_1_0) bitsLt_bf16_f32 := by
    unfold V; after_results
  rw [e, truncf_apply, transpose_ix2_apply]

/-- The bias, as a row. -/
theorem biasRow_apply (c : Dev nD) (u : Fin 1) (o : Fin 64) :
    (V m c main_v13 : S1x64.Idx → EReal) (ix2 u o) = (m ((c : Thread nD τ).loc main_arg4) : S64.Idx → EReal) (ix1 o) := by
  have e : (V m c main_v13 : S1x64.Idx → EReal) = shapeCast S1x64 (m ((c : Thread nD τ).loc main_arg4)) shapeCasts_S64_S1x64 := by
    unfold V; after_results; rfl
  rw [e, shapeCast_a_1a_apply]

/-! ## Where each window's block sits -/

/-- The printed index maps over the 64 grid points: the samples' window and the result's move with the point along the
    rows; the five prepared arrays are handed over whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The blocks, entry by entry -/

/-- Row `p` of point `t`'s block of samples is row `1024·t + p` of `x`. -/
theorem smpBlock_apply (c : Dev nD) (t : Fin cfg0.N) (p : Fin 1024) (d : Fin 256) (n : Fin 65536) (hn : n.val = t.val * 1024 + p.val) :
    (iblk m c 0 t : S1024x256.Idx → EReal) (ix2 p d) = (m ((c : Thread nD τ).loc main_arg0) : S65536x256.Idx → EReal) (ix2 n d) := by
  obtain ⟨e00, e01, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 1024 + 1 * p.val = n.val; omega
  | ⟨1, _⟩ => show win0_0.index t (1 : Fin 2) * 256 + 1 * d.val = d.val; omega

theorem ctrTBlock_apply (c : Dev nD) (t : Fin cfg0.N) (d : Fin 256) (k : Fin 1024) :
    (iblk m c 1 t : S256x1024.Idx → EReal) (ix2 d k) = (m ((c : Thread nD τ).loc main_arg1) : S1024x256.Idx → EReal) (ix2 k d) := by
  obtain ⟨-, -, e10, e11, -⟩ := idx_facts t
  refine Eq.trans ?_ (ctrT_apply m c d k)
  show V m c main_v1 (((cfg0.win 1).blk t).view.emb (ix2 d k)) = V m c main_v1 (ix2 d k)
  refine congrArg _ (funext fun a => Fin.ext ?_)
  match a with
  | ⟨0, _⟩ => show win0_1.index t (0 : Fin 2) * 256 + 1 * d.val = d.val; omega
  | ⟨1, _⟩ => show win0_1.index t (1 : Fin 2) * 1024 + 1 * k.val = k.val; omega

theorem ctrSqBlock_apply (c : Dev nD) (t : Fin cfg0.N) (k : Fin 1024) :
    (iblk m c 2 t : S1x1024.Idx → EReal) (ix2 (0 : Fin 1) k)
      = (∑ d : Fin 256, ctrArr m c (ix2 k d) * ctrArr m c (ix2 k d) : EReal) := by
  obtain ⟨-, -, -, -, e20, e21, -⟩ := idx_facts t
  refine Eq.trans ?_ (ctrSq_apply m c 0 k)
  show V m c main_v4 (((cfg0.win 2).blk t).view.emb (ix2 (0 : Fin 1) k)) = V m c main_v4 (ix2 (0 : Fin 1) k)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem widthBlock_apply (c : Dev nD) (t : Fin cfg0.N) (k : Fin 1024) :
    (iblk m c 3 t : S1x1024.Idx → EReal) (ix2 (0 : Fin 1) k) = Cert.Rbf.width (m ((c : Thread nD τ).loc main_arg2)) k := by
  obtain ⟨-, -, -, -, -, -, e30, e31, -⟩ := idx_facts t
  refine Eq.trans ?_ (width_apply m c 0 k)
  show V m c main_v10 (((cfg0.win 3).blk t).view.emb (ix2 (0 : Fin 1) k)) = V m c main_v10 (ix2 (0 : Fin 1) k)
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * k.val = k.val; omega

theorem wTBlock_apply (c : Dev nD) (t : Fin cfg0.N) (k : Fin 1024) (o : Fin 64) :
    (iblk m c 4 t : S1024x64.Idx → EReal) (ix2 k o) = (m ((c : Thread nD τ).loc main_arg3) : S64x1024.Idx → EReal) (ix2 o k) := by
  obtain ⟨-, -, -, -, -, -, -, -, e40, e41, -⟩ := idx_facts t
  refine Eq.trans ?_ (wT_apply m c k o)
  show V m c main_v12 (((cfg0.win 4).blk t).view.emb (ix2 k o)) = V m c main_v12 (ix2 k o)
  refine congrArg _ (funext fun a => Fin.ext ?_)
  match a with
  | ⟨0, _⟩ => show win0_4.index t (0 : Fin 2) * 1024 + 1 * k.val = k.val; omega
  | ⟨1, _⟩ => show win0_4.index t (1 : Fin 2) * 64 + 1 * o.val = o.val; omega

theorem biasBlock_apply (c : Dev nD) (t : Fin cfg0.N) (o : Fin 64) :
    (iblk m c 5 t : S1x64.Idx → EReal) (ix2 (0 : Fin 1) o) = (m ((c : Thread nD τ).loc main_arg4) : S64.Idx → EReal) (ix1 o) := by
  obtain ⟨-, -, -, -, -, -, -, -, -, -, e50, e51, -⟩ := idx_facts t
  refine Eq.trans ?_ (biasRow_apply m c 0 o)
  show V m c main_v13 (((cfg0.win 5).blk t).view.emb (ix2 (0 : Fin 1) o)) = V m c main_v13 (ix2 (0 : Fin 1) o)
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * o.val = o.val; omega

end Cert.KernelIdeal.Windows

end
-- ==== Proof.KernelValue.lean ====
/-
  The kernel's result array is `net` of the argument arrays.

  Grid point `t` writes back rows `1024·t … 1024·t + 1023` of the [65536, 64] result, all 64 columns; the 64 points' blocks
  tile the array. At row `p` of its block and unit `q` the point stores `blockAt` of its six input blocks, and those blocks hold
  row `1024·t + p` of the samples, the transposed centres, the centres' squared norms, the widths, the transposed weights and
  the bias: substituting them, and reading the kernel's `0 − v` as `−v`, gives `netAt` at sample `1024·t + p`, unit `q`. So every
  block is the corresponding block of `net`, and the blocks cover.
-/
import proofs.«176060_j19327352832510_1_alg».proof.Proof.Gen.KernelIdeal.Value
import proofs.«176060_j19327352832510_1_alg».proof.Proof.KernelBlock
import proofs.«176060_j19327352832510_1_alg».proof.Proof.KernelWindows
import Idealize.ShloMosaic.Lib.Pipeline.Value

noncomputable section

namespace Cert.KernelIdeal.RefValue

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

/-! ## One stored entry against the specification -/

/-- If row `p` of the sample block is sample `n`, the second block is the centres transposed, the third their squared
    norms, the fourth the widths, the fifth the weights transposed and the sixth the bias, then what the body stores at
    `(p, q)` is the network's output for sample `n` at unit `o = q`. The only algebra: `0 − v = −v`. -/
theorem point_eq (xb : Vec Ideal S1024x256 .f32) (ct : Vec Ideal S256x1024 .bf16) (cs dn : Vec Ideal S1x1024 .f32)
    (wt : Vec Ideal S1024x64 .bf16) (bb : Vec Ideal S1x64 .f32)
    (x : S65536x256.Idx → EReal) (ctr : S1024x256.Idx → EReal) (σ : S1024.Idx → EReal) (W : S64x1024.Idx → EReal) (b : S64.Idx → EReal)
    (p : Fin 1024) (q : Fin 64) (n : Fin 65536) (o : Fin 64)
    (hx : ∀ d : Fin 256, xb (ix2 p d) = x (ix2 n d))
    (hct : ∀ (d : Fin 256) (k : Fin 1024), ct (ix2 d k) = ctr (ix2 k d))
    (hcs : ∀ k : Fin 1024, cs (ix2 (0 : Fin 1) k) = ∑ d : Fin 256, ctr (ix2 k d) * ctr (ix2 k d))
    (hdn : ∀ k : Fin 1024, dn (ix2 (0 : Fin 1) k) = Cert.Rbf.width σ k)
    (hwt : ∀ k : Fin 1024, wt (ix2 k q) = W (ix2 o k))
    (hbb : bb (ix2 (0 : Fin 1) q) = b (ix1 o)) :
    k0_pay1 (F := Ideal) xb ct cs dn wt bb (ix2 p q) = Cert.Rbf.net x ctr σ W b (ix2 n o) := by
  rw [Block.pay_apply, Cert.Rbf.net_ix2]
  unfold Block.blockAt Cert.Rbf.netAt Cert.Rbf.act Cert.Rbf.gap
  simp only [hx, hct, hcs, hdn, hwt, hbb, zero_sub]

variable (m : (ℓ : Loc nD τ sig) → Buf (Elt Ideal) ℓ) (ρ : Dev nD → PrngReg)

/-- What the result array holds: `net` of the five argument arrays as launched. -/
abbrev result (c : Dev nD) : Buf (Elt Ideal) ((c : Thread nD τ).loc main_v14) :=
  Cert.Rbf.net (m ((c : Thread nD τ).loc main_arg0)) (m ((c : Thread nD τ).loc main_arg1)) (m ((c : Thread nD τ).loc main_arg2))
    (m ((c : Thread nD τ).loc main_arg3)) (m ((c : Thread nD τ).loc main_arg4))

/-! ## Each point writes its block of `net` -/

theorem zero_off : (![0, 0] : Fin 2 → Nat) = fun _ => 0 := funext fun a => by fin_cases a <;> rfl

theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_off]
  simp only [View.ld_unit_zero (S := S1024x256) zero_off, View.ld_unit_zero (S := S256x1024) zero_off,
    View.ld_unit_zero (S := S1x1024) zero_off, View.ld_unit_zero (S := S1024x64) zero_off, View.ld_unit_zero (S := S1x64) zero_off]
  obtain ⟨-, -, -, -, -, -, -, -, -, -, -, -, e60, e61⟩ := Windows.idx_facts t
  have hN : grid0.N = 64 := N_0
  have ht : t.val < 64 := hN ▸ t.isLt
  funext j
  have hj0 : (j 0).val < 1024 := (j 0).isLt
  have hj1 : (j 1).val < 64 := (j 1).isLt
  show k0_pay1 (F := Ideal) (iblk m c 0 t) (iblk m c 1 t) (iblk m c 2 t) (iblk m c 3 t) (iblk m c 4 t) (iblk m c 5 t) j
      = result m c (((cfg0.win 6).blk t).view.emb j)
  -- the stored entry's place in the array: row 1024·t + (row in the block), same column
  have hemb : ((cfg0.win 6).blk t).view.emb j
      = ix2 (⟨t.val * 1024 + (j 0).val, by omega⟩ : Fin 65536) (⟨(j 1).val, hj1⟩ : Fin 64) := funext fun a => Fin.ext (by
    match a with
    | ⟨0, _⟩ => show win0_6.index t (0 : Fin 2) * 1024 + 1 * (j 0).val = t.val * 1024 + (j 0).val; omega
    | ⟨1, _⟩ => show win0_6.index t (1 : Fin 2) * 64 + 1 * (j 1).val = (j 1).val; omega)
  have hj : j = ix2 (⟨(j 0).val, hj0⟩ : Fin 1024) (⟨(j 1).val, hj1⟩ : Fin 64) := funext fun a => Fin.ext (by
    match a with
    | ⟨0, _⟩ => rfl
    | ⟨1, _⟩ => rfl)
  refine (congrArg (k0_pay1 (F := Ideal) (iblk m c 0 t) (iblk m c 1 t) (iblk m c 2 t) (iblk m c 3 t) (iblk m c 4 t) (iblk m c 5 t)) hj).trans ?_
  refine Eq.trans ?_ (congrArg (result m c) hemb.symm)
  exact point_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4))
    ⟨(j 0).val, hj0⟩ ⟨(j 1).val, hj1⟩ ⟨t.val * 1024 + (j 0).val, by omega⟩ ⟨(j 1).val, hj1⟩
    (fun d => Windows.smpBlock_apply m c t ⟨(j 0).val, hj0⟩ d ⟨t.val * 1024 + (j 0).val, by omega⟩ rfl)
    (fun d k => Windows.ctrTBlock_apply m c t d k)
    (fun k => Windows.ctrSqBlock_apply m c t k)
    (fun k => Windows.widthBlock_apply m c t k)
    (fun k => Windows.wTBlock_apply m c t k ⟨(j 1).val, hj1⟩)
    (Windows.biasBlock_apply m c t ⟨(j 1).val, hj1⟩)

/-! ## The blocks tile the array -/

/-- An entry of the array is in point `t`'s block iff each coordinate is in the block's range on its axis. -/
theorem mem_blk (t : Fin cfg0.N) (i : S65536x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v14).slice (win0_6.rect t)).set ↔ _
  rw [View.set_slice_whole, Rect.mem_set_unit]
  exact Iff.rfl

/-- Row `r` of the result lies in the block of point `r / 1024`. -/
theorem cover (i : S65536x64.Idx) : ∃ t : Fin cfg0.N, (cfg0.win 6).flush t = true ∧ i ∈ ((cfg0.win 6).blk t).view.set := by
  have hN : grid0.N = 64 := N_0
  have hi0 : (i 0).val < 65536 := (i 0).isLt
  have hi1 : (i 1).val < 64 := (i 1).isLt
  have htN : (i 0).val / 1024 < cfg0.N := by show (i 0).val / 1024 < grid0.N; rw [hN]; omega
  obtain ⟨-, -, -, -, -, -, -, -, -, -, -, -, e60, e61⟩ := Windows.idx_facts ⟨(i 0).val / 1024, htN⟩
  refine ⟨⟨(i 0).val / 1024, htN⟩, flush0_6 _, ?_⟩
  rw [mem_blk]
  intro a
  match a with
  | ⟨0, _⟩ =>
    show win0_6.index ⟨(i 0).val / 1024, htN⟩ (0 : Fin 2) * 1024 ≤ (i 0).val ∧ (i 0).val < win0_6.index ⟨(i 0).val / 1024, htN⟩ (0 : Fin 2) * 1024 + 1024
    rw [e60]
    show (i 0).val / 1024 * 1024 ≤ (i 0).val ∧ (i 0).val < (i 0).val / 1024 * 1024 + 1024
    omega
  | ⟨1, _⟩ =>
    show win0_6.index ⟨(i 0).val / 1024, htN⟩ (1 : Fin 2) * 64 ≤ (i 1).val ∧ (i 1).val < win0_6.index ⟨(i 0).val / 1024, htN⟩ (1 : Fin 2) * 64 + 64
    rw [e61]
    omega

/-! ## The array after the run, and the run re-posted -/

theorem final (c : Dev nD) : (dats m 0 c).arrAt 6 cfg0.N = result m c :=
  (dats m 0 c).arrAt_eq_of_cover 6 (result m c) (fun t _ => flushed_eq m c t) cover

/-- Every weakly fair execution of the idealized kernel ends with its result array at `net` of the arguments and the
    arguments as launched. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RefValue

end
-- ==== Proof.RefIsNet.lean ====
/-
  The reference computes `net`.

  Its last stage, read entry by entry through the generated stage lemmas, is: a sum over the centres of
  `exp(−gap / width)` times a weight, plus a bias — with `gap` assembled from two row sums of squares (each an initial
  zero plus a sum) and a contraction over the features, and `width` from the spreads. Every index that a broadcast, a
  reduction or a contraction hands to its operand is one of `(n, d)`, `(c, d)`, `(o, c)`, `c`, `o`; the equations below say so,
  and with them the chain of stage lemmas lands on `netAt` literally, the two initial zeros absorbed.
-/
import proofs.«176060_j19327352832510_1_alg».proof.Proof.Gen.ReferenceIdeal.Read
import proofs.«176060_j19327352832510_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

/-! ## Where each stage reads its operand -/

theorem mixL (n : Fin 65536) (o : Fin 64) (k : Fin 1024) : lidx_main_v23 (ix2 n o) k = ix2 n k :=
  funext fun a => Fin.ext (by match a with | ⟨0, _⟩ => rfl | ⟨1, _⟩ => rfl)
theorem mixR (n : Fin 65536) (o : Fin 64) (k : Fin 1024) : ridx_main_v23 (ix2 n o) k = ix2 o k :=
  funext fun a => Fin.ext (by match a with | ⟨0, _⟩ => rfl | ⟨1, _⟩ => rfl)
theorem biasRow (n : Fin 65536) (o : Fin 64) : idx_main_v25 (ix2 n o) = ix2 (0 : Fin 1) o :=
  funext fun a => Fin.ext (by match a with | ⟨0, _⟩ => rfl | ⟨1, _⟩ => rfl)
theorem biasVec (u : Fin 1) (o : Fin 64) : idx_main_v24 (ix2 u o) = ix1 o :=
  funext fun a => Fin.ext (by match a with | ⟨0, _⟩ => rfl)
theorem widthRow (n : Fin 65536) (c : Fin 1024) : idx_main_v20 (ix2 n c) = ix2 (0 : Fin 1) c :=
  funext fun a => Fin.ext (by match a with | ⟨0, _⟩ => rfl | ⟨1, _⟩ => rfl)
theorem widthVec (u : Fin 1) (c : Fin 1024) : idx_main_v19 (ix2 u c) = ix1 c :=
  funext fun a => Fin.ext (by match a with | ⟨0, _⟩ => rfl)
theorem ctrRow (n : Fin 65536) (c : Fin 1024) : idx_main_v11 (ix2 n c) = ix2 (0 : Fin 1) c :=
  funext fun a => Fin.ext (by match a with | ⟨0, _⟩ => rfl | ⟨1, _⟩ => rfl)
theorem ctrVec (u : Fin 1) (c : Fin 1024) : idx_main_v10 (ix2 u c) = ix1 c :=
  funext fun a => Fin.ext (by match a with | ⟨0, _⟩ => rfl)
theorem ctrSq (c : Fin 1024) (d : Fin 256) : idx_main_v4 (ix1 c) d = ix2 c d :=
  funext fun a => Fin.ext (by match a with | ⟨0, _⟩ => rfl | ⟨1, _⟩ => rfl)
theorem smpCol (n : Fin 65536) (c : Fin 1024) : idx_main_v8 (ix2 n c) = ix2 n (0 : Fin 1) :=
  funext fun a => Fin.ext (by match a with | ⟨0, _⟩ => rfl | ⟨1, _⟩ => rfl)
theorem smpVec (n : Fin 65536) (u : Fin 1) : idx_main_v2 (ix2 n u) = ix1 n :=
  funext fun a => Fin.ext (by match a with | ⟨0, _⟩ => rfl)
theorem smpSq (n : Fin 65536) (d : Fin 256) : idx_main_v1 (ix1 n) d = ix2 n d :=
  funext fun a => Fin.ext (by match a with | ⟨0, _⟩ => rfl | ⟨1, _⟩ => rfl)
theorem crossL (n : Fin 65536) (c : Fin 1024) (d : Fin 256) : lidx_main_v5 (ix2 n c) d = ix2 n d :=
  funext fun a => Fin.ext (by match a with | ⟨0, _⟩ => rfl | ⟨1, _⟩ => rfl)
theorem crossR (n : Fin 65536) (c : Fin 1024) (d : Fin 256) : ridx_main_v5 (ix2 n c) d = ix2 c d :=
  funext fun a => Fin.ext (by match a with | ⟨0, _⟩ => rfl | ⟨1, _⟩ => rfl)

/-! ## The last stage is `net` -/

theorem stage_eq_net (x0 : (⟨S65536x256, .f32⟩ : BufTy).Contents (Elt Ideal)) (x1 : (⟨S1024x256, .f32⟩ : BufTy).Contents (Elt Ideal))
    (x2 : (⟨S1024, .f32⟩ : BufTy).Contents (Elt Ideal)) (x3 : (⟨S64x1024, .f32⟩ : BufTy).Contents (Elt Ideal))
    (x4 : (⟨S64, .f32⟩ : BufTy).Contents (Elt Ideal)) :
    val_main_v26 (F := Ideal) x0 x1 x2 x3 x4 = Cert.Rbf.net x0 x1 x2 x3 x4 := by
  funext i
  obtain ⟨n, o, rfl⟩ : ∃ (n : Fin 65536) (o : Fin 64), i = ix2 n o := ⟨i 0, i 1, eq_ix2 i⟩
  rw [Cert.Rbf.net_ix2]
  simp only [val_main_v26_apply, val_main_v25_apply, val_main_v24_apply, val_main_v23_apply, val_main_v22_apply,
    val_main_v21_apply, val_main_v20_apply, val_main_v19_apply, val_main_v18_apply, val_main_v17_apply, val_main_cst_3_apply,
    val_main_v16_apply, val_main_v15_apply, val_main_cst_2_apply, val_main_v14_apply, val_main_v13_apply, val_main_v12_apply,
    val_main_v11_apply, val_main_v10_apply, val_main_v9_apply, val_main_v8_apply, val_main_v7_apply, val_main_v6_apply,
    val_main_cst_1_apply, val_main_v5_apply, val_main_v4_apply, val_main_cst_0_apply, val_main_v3_apply, val_main_v2_apply,
    val_main_v1_apply, val_main_cst_apply, val_main_v0_apply,
    mixL, mixR, biasRow, biasVec, widthRow, widthVec, ctrRow, ctrVec, ctrSq, smpCol, smpVec, smpSq, crossL, crossR,
    Ideal.addf_def, Ideal.subf_def, Ideal.mulf_def, Ideal.hostDivf_def, Ideal.hostNegf_def, Ideal.negf_def,
    Ideal.hostUnary_exp_def, Ideal.ofBits_def, Ideal.ofBits_zero_f32, zero_add]
  rfl

end Cert.ReferenceIdeal.RefValue

end
-- ==== Proof.lean ====
/-
  A radial-basis network, fused into one kernel pass per block of 1024 samples, against its plain array-library form.

  Both programs compute, for sample `n` and output unit `o`,

      Σ_c exp( −(‖x_n‖² − 2·⟨x_n, ctr_c⟩ + ‖ctr_c‖²) / (2·σ_c² + ε) ) · W[o, c]  +  b[o]

  (`Cert.Rbf.net`, Proof/Spec.lean), with the same association of the three-term squared distance and the same two
  single-precision literals. On the extended reals the kernel's half-precision operands are the identity, its two
  matrix products into zero accumulators are plain sums over the contracted axis, as the reference's contractions are,
  its row sum of squares is the reference's reduction from an initial zero, and its `0 − v` is the reference's `−v`. No step
  moves a factor across a sum or cancels, so the finiteness of the inputs is never used.

  The kernel side: Proof/KernelBlock.lean reads what one grid point stores, entry by entry; Proof/KernelWindows.lean says
  what the point's six input blocks hold in terms of the five arguments (the host's transposes, norms, widths and
  reshapes); Proof/KernelValue.lean puts the 64 blocks together into the whole result. The reference side:
  Proof/RefIsNet.lean walks the generated stage lemmas to `net`. The three frames are the generated ones (the
  reference's is its generated run with the result dropped); the idealization rewrote nothing, so `preserves` is trivial.
-/
import proofs.«176060_j19327352832510_1_alg».proof.Defs
import proofs.«176060_j19327352832510_1_alg».proof.Proof.Gen.Kernel
import proofs.«176060_j19327352832510_1_alg».proof.Proof.Gen.Kernel.Skeleton
import proofs.«176060_j19327352832510_1_alg».proof.Proof.Gen.Kernel.Launch
import proofs.«176060_j19327352832510_1_alg».proof.Proof.Gen.Kernel.Points
import proofs.«176060_j19327352832510_1_alg».proof.Proof.Gen.Kernel.Frame
import proofs.«176060_j19327352832510_1_alg».proof.Proof.Gen.KernelIdeal
import proofs.«176060_j19327352832510_1_alg».proof.Proof.Gen.KernelIdeal.Skeleton
import proofs.«176060_j19327352832510_1_alg».proof.Proof.Gen.KernelIdeal.Launch
import proofs.«176060_j19327352832510_1_alg».proof.Proof.Gen.KernelIdeal.Points
import proofs.«176060_j19327352832510_1_alg».proof.Proof.Gen.KernelIdeal.Frame
import proofs.«176060_j19327352832510_1_alg».proof.Proof.Gen.ReferenceIdeal
import proofs.«176060_j19327352832510_1_alg».proof.Proof.Gen.Pre_finite_inputs
import proofs.«176060_j19327352832510_1_alg».proof.Proof.Gen.KernelIdeal.Value
import proofs.«176060_j19327352832510_1_alg».proof.Proof.Gen.ReferenceIdeal.Run
import proofs.«176060_j19327352832510_1_alg».proof.Proof.Gen.ReferenceIdeal.Read
import proofs.«176060_j19327352832510_1_alg».proof.Proof.KernelValue
import proofs.«176060_j19327352832510_1_alg».proof.Proof.RefIsNet
import Idealize.ShloMosaic.Adequacy
import Idealize.ShloMosaic.Init

noncomputable section

namespace Cert.Proof

open Idealize.ShloMosaic Idealize.SL.Sem

/-- Every execution of the word-level kernel ends, faultless, with its arguments as launched. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both idealized programs end with the result array at `net` of those
    arguments: the kernel's by its 64 blocks, the reference's by its last stage. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.stage_eq_net,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
